-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S1 : Shape := ⟨1, ![1]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .bf16⟩
  | .local _ .vmem, ⟨0, _⟩ => ⟨S256x256, .f32⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v18 : BitVec 32 := Scalar.muli v2 c2_i32_12
  let v19 : BitVec 32 := Scalar.addi c0_i32_13 v18
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v20 : BitVec 32 := Scalar.muli v6 c1_i32_14
  let v21 : BitVec 32 := Scalar.addi v19 v20
  v21.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  packedbf16_S256x256_S256x256_0_0 : (Rect.unit (s := S256x256) ![0, 0] S256x256.size inb_S256x256_S256x256_0_0).PackedRows (EltTy.packing .bf16)
  inb_S1_S1_0 : ∀ a, (![0] : Fin 1 → Nat) a + S1.size a ≤ S1.size a
  squeezes_S1_S_ : S1.Squeezes S_
  wordsbf16_S256x256_S256x256_0_0 : (Rect.unit (s := S256x256) ![0, 0] S256x256.size inb_S256x256_S256x256_0_0).WholeWords (EltTy.packing .bf16)
  hcc0_scratch2 : 2 + S1.numel ≤ 4
  hcc0_scratch3 : 3 + S1.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S1 := SemArray.consecutive 2 S1 hcc0_scratch2
abbrev cc0_scratch3 : DmaSems sig S1 := SemArray.consecutive 3 S1 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | .hbm, ⟨4, _⟩ => ⟨S256x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel
  bitsLt_bf16_f32 : FTy.bits .bf16 < FTy.bits .f32

variable [Facts₀]

class Facts : Prop extends Facts₀ where

variable [Facts]
-- ==== Proof.Kernel.Sched.lean ====
/-
  The pairwise exchange behind the all-reduce, part 1: the protocol.

  Four devices on a 2 x 2 mesh; device c = 2 a + b holds the 256 rows of x that its second coordinate b selects.
  Its partner is the device with the same first coordinate and the other second coordinate, peer c = 2 a + (1 - b):
  an involution without fixed points.  Every device rounds its rows to bf16 into a send buffer, tells its partner
  that it has entered (one unit on the partner's barrier semaphore), waits for the partner's unit, copies the send
  buffer into the partner's receive buffer, waits for the partner's copy to land in its own receive buffer, stores
  send + receive, and waits for its own copy to have been read.

  Three semaphores a device: the barrier semaphore (one duty of one unit, paid by the partner's signal: it hands over
  the partner's receive buffer and that the partner stands at round 0 of its receive semaphore), the send semaphore
  (one duty of the buffer's credit, paid by the device's own copy once its source is read: it hands back the share of
  the send buffer lent to the copy), the receive semaphore (one duty of the buffer's credit, paid by the partner's
  copy: it hands over the receive buffer holding the partner's rounded rows).  The send buffer is read by the device
  while its copy is in flight, so only HALF of it is lent to the copy; the other half stays with the device.

  A device owes, at launch, the partner's receive credit and the partner's barrier unit.  Levels: barrier cells 1,
  receive cells 2, everything else 0; a device waits on its barrier cell owing a receive cell only.
-/
import proofs.«900144_g7700000000000145_dist_ar_v7x_xy2x2_y_m256_n256_bf16_1_alg».proof.Proof.Gen.Kernel
import proofs.«900144_g7700000000000145_dist_ar_v7x_xy2x2_y_m256_n256_bf16_1_alg».proof.Proof.Gen.Kernel.Skeleton
import proofs.«900144_g7700000000000145_dist_ar_v7x_xy2x2_y_m256_n256_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- The device with the same first mesh coordinate and the other second one. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- Both device chains of the body (the signal's and the copy's) name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pairing : Dev nD ≃ Dev nD := ⟨peer, peer, peer_peer, peer_peer⟩

/-! ## The memrefs and cells -/

abbrev r0 : Rect S256x256 := Rect.unit (s := S256x256) ![0, 0] S256x256.size inb_S256x256_S256x256_0_0

abbrev xM : Memref sig .tc .vmem S256x256 .f32 := Memref.whole cc0_stg0_0
abbrev oM : Memref sig .tc .vmem S256x256 .bf16 := Memref.whole cc0_stg1_0
abbrev sM : Memref sig .tc .vmem S256x256 .bf16 := Memref.whole cc0_scratch0
abbrev rM : Memref sig .tc .vmem S256x256 .bf16 := Memref.whole cc0_scratch1
/-- The copy's two ends: all of the send buffer, all of the receive buffer, each through the rectangle at the origin. -/
abbrev sV : Memref sig .tc .vmem S256x256 .bf16 := sM.slice r0 (fun _ => rfl)
abbrev rV : Memref sig .tc .vmem S256x256 .bf16 := rM.slice r0 (fun _ => rfl)

abbrev barS : Sem sig := (SemArray.scalar (sig.barrier 0 rfl) : Sems sig S_).sem
abbrev sendS : DmaSems sig S_ := (cc0_scratch2.slice (Rect.unit (s := S1) ![0] S1.size inb_S1_S1_0)).squeeze S_ squeezes_S1_S_
abbrev recvS : DmaSems sig S_ := (cc0_scratch3.slice (Rect.unit (s := S1) ![0] S1.size inb_S1_S1_0)).squeeze S_ squeezes_S1_S_

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rV : Memref sig .tc .vmem S256x256 .bf16).view.dmaCredit
theorem N_pos : 0 < N := View.dmaCredit_pos _ (by decide)

/-! ## Contents -/

omit [FloatOps F] in
theorem hz : (![0, 0] : Fin 2 → Nat) = fun _ => 0 := funext fun a => by fin_cases a <;> rfl

/-- Device c's rows of x, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))

/-- What device c sends: its rows rounded to bf16. -/
def sent (c : Dev nD) : (cc0_scratch0 : Ref sig .tc).ty.Contents (Elt F) := k0_pay2 (xstg m ρ c)

/-- What lands in device c's receive buffer: its partner's rounded rows. -/
def landed (c : Dev nD) : Buf (Elt F) ((rV : Memref sig .tc .vmem S256x256 .bf16).view.loc (c : Thread nD τ)) := sent m ρ (peer c)

/-- The result on device c: its own rounded rows plus its partner's. -/
def outAt (c : Dev nD) : (cc0_stg1_0 : Ref sig .tc).ty.Contents (Elt F) := k0_pay1 (sent m ρ c) (sent m ρ (peer c))

omit [FloatOps F] in
/-- The rectangle of a buffer's own sizes at the origin covers the buffer, however the zero offsets are spelt. -/
theorem set_access_unit_zero (b : Ref sig .tc) {off : Fin b.ty.shape.rank → Nat} (h : off = fun _ => 0)
    (inb : ∀ a, off a + b.ty.shape.size a ≤ b.ty.shape.size a) :
    ((Memref.whole b).access (Rect.unit off b.ty.shape.size inb) : View sig .tc _ _ _).set = Finset.univ := by
  subst h; exact Memref.set_access_whole b
omit [FloatOps F] in
theorem sV_set : (sV : Memref sig .tc .vmem S256x256 .bf16).view.set = Finset.univ :=
  set_access_unit_zero cc0_scratch0 hz _
omit [FloatOps F] in
theorem rV_set : (rV : Memref sig .tc .vmem S256x256 .bf16).view.set = Finset.univ :=
  set_access_unit_zero cc0_scratch1 hz _

omit [FloatOps F] in
/-- A whole send buffer copied over a whole receive buffer leaves the send buffer's contents there. -/
theorem landed_eq (c : Dev nD) (fd : Buf (Elt F) ((rV : Memref sig .tc .vmem S256x256 .bf16).view.loc (c : Thread nD τ)))
    (fs : (cc0_scratch0 : Ref sig .tc).ty.Contents (Elt F)) :
    (rV : Memref sig .tc .vmem S256x256 .bf16).view.write (Elt F) fd ((sV : Memref sig .tc .vmem S256x256 .bf16).view.read (Elt F) fs) Finset.univ = fs := by
  show ((Memref.whole cc0_scratch1).access r0 : View sig .tc _ _ _).write (Elt F) fd
    (((Memref.whole cc0_scratch0).access r0 : View sig .tc _ _ _).read (Elt F) fs) Finset.univ = fs
  refine (congrArg (fun w => ((Memref.whole cc0_scratch1).access r0 : View sig .tc _ _ _).write (Elt F) fd w Finset.univ)
    (Memref.read_access_unit_zero (Elt F) cc0_scratch0 hz _ fs)).trans ?_
  exact Memref.write_access_unit_zero_univ (Elt F) cc0_scratch1 hz _ fd fs

/-- The receive buffer of device c, whole, at contents f; the send buffer at share q. -/
def rPts (c : Dev nD) (f : Buf (Elt F) ((rV : Memref sig .tc .vmem S256x256 .bf16).view.loc (c : Thread nD τ))) : sProp 𝕄 :=
  (rV : Memref sig .tc .vmem S256x256 .bf16).view.loc (c : Thread nD τ) ↦[(rV : Memref sig .tc .vmem S256x256 .bf16).view.set]{fullShare} f
def sPts (q : PosShare TreeShare) (c : Dev nD) (f : Buf (Elt F) ((sV : Memref sig .tc .vmem S256x256 .bf16).view.loc (c : Thread nD τ))) : sProp 𝕄 :=
  (sV : Memref sig .tc .vmem S256x256 .bf16).view.loc (c : Thread nD τ) ↦[(sV : Memref sig .tc .vmem S256x256 .bf16).view.set]{q} f

omit [FloatOps F] in
instance rPts_storable (c : Dev nD) (f) : BI.Storable (upEmb : UEmb _ 𝕄) (rPts (F := F) c f) := by unfold rPts; infer_instance
omit [FloatOps F] in
instance sPts_storable (q : PosShare TreeShare) (c : Dev nD) (f) : BI.Storable (upEmb : UEmb _ 𝕄) (sPts (F := F) q c f) := by unfold sPts; infer_instance

omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [rV_set]
omit [FloatOps F] in
theorem sPts_eq (q : PosShare TreeShare) (c : Dev nD) (f : Buf (Elt F) ((c : Thread nD τ).loc cc0_scratch0)) :
    sPts q c f = (((c : Thread nD τ).loc cc0_scratch0) ↦{q} f : sProp 𝕄) := by unfold sPts; rw [sV_set]

/-! ## The schedule -/

/-- What the partner's signal hands device c: the partner's receive buffer and that the partner stands at round 0 of its
    receive cell (what c's copy into it needs). -/
def barPay (c : Dev nD) : sProp 𝕄 := iprop((∃ f, rPts (peer c) f) ∗ reached ER (recvCell (peer c)) 0)
/-- What the partner's copy hands device c: its receive buffer at the partner's rounded rows. -/
def recvPay (c : Dev nD) : sProp 𝕄 := rPts c (landed m ρ c)
/-- What device c's own copy hands back: the half of the send buffer lent to it. -/
def sendPay (c : Dev nD) : sProp 𝕄 := sPts fullShare.left c (sent m ρ c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty a cell: a barrier cell's of one unit, a send or receive cell's of the buffer's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, .inl ⟨rfl, rfl⟩⟩
theorem duties_send : (sched (F := F) m ρ).duties (sendCell c) 0 = {()} := by dsimp only [sched]; exact if_pos ⟨rfl, .inr ⟨rfl, .inl rfl⟩⟩
theorem duties_recv : (sched (F := F) m ρ).duties (recvCell c) 0 = {()} := by dsimp only [sched]; exact if_pos ⟨rfl, .inr ⟨rfl, .inr rfl⟩⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device c owes its partner's receive cell the buffer's credit and its partner's barrier cell one unit (the signal, which
    comes first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging or send cell (level 0) may be waited on whatever of the launch debt is left. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names K the launch allocated them at: its own three, its
    partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The exchange's ghost state device c starts from: the invariants; its positions at round 0 of its three cells; round 0
    reached of the cells it pays and of its own send and receive cells; the three duty tokens it pays with (its partner's
    barrier duty, its partner's receive duty, its own send duty). -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from: that at some names, the credit of its barrier cell's unit and of its receive cell's
    copy, and the level facts. -/
def start (c : Dev nD) : sProp 𝕄 :=
  iprop((∃ K, ghost m ρ K c) ∗ cred (tallyAt (barCell c) () 1) ∗ cred (tallyAt (recvCell c) () N) ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers back whole, the two own cells at zero, closed. -/
def Φ₁ (c : Dev nD) : sProp 𝕄 := iprop(scratch c ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Exchange

end
-- ==== Proof.Kernel.Body.lean ====
/-
  The pairwise exchange behind the all-reduce, part 2: one device's body.

  From its share of the exchange's ghost state, the two staging buffers and the two scratch buffers, device c
  signals its partner's barrier cell (handing over its receive buffer), rounds its rows into the send buffer, waits for
  its partner's signal (receiving the partner's receive buffer), lends the LEFT half of the send buffer to the copy into
  the partner's receive buffer, waits for the partner's copy (its receive buffer comes back holding the partner's rounded
  rows), reads the send buffer through the RIGHT half it kept and the receive buffer, stores their sum in the output's
  staging buffer, waits for its own copy to have been read (the left half comes back) and joins the two halves.
-/
import proofs.«900144_g7700000000000145_dist_ar_v7x_xy2x2_y_m256_n256_bf16_1_alg».proof.Proof.Kernel.Sched

noncomputable section

namespace Cert.Kernel.Exchange

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The tables as the run reads them: each payload as the points-to it is, over the whole buffer, the partner's partner resolved. -/
theorem payload_bar_own (c : Dev nD) (d : Unit) : (sched (F := F) m ρ).payload (barCell c) 0 d
    = iprop((∃ f, (rM : Memref sig .tc .vmem S256x256 .bf16).view.loc (peer c : Thread nD τ) ↦{fullShare} f) ∗ reached ER (recvCell (peer c)) 0) := by
  rw [payload_bar]; unfold barPay; simp only [rPts_eq]
theorem payload_bar_peer (c : Dev nD) (d : Unit) : (sched (F := F) m ρ).payload (barCell (peer c)) 0 d
    = iprop((∃ f, (rM : Memref sig .tc .vmem S256x256 .bf16).view.loc (c : Thread nD τ) ↦{fullShare} f) ∗ reached ER (recvCell c) 0) := by
  rw [payload_bar_own, peer_peer]
theorem payload_send_own (c : Dev nD) (d : Unit) : (sched (F := F) m ρ).payload (sendCell c) 0 d
    = ((sM : Memref sig .tc .vmem S256x256 .bf16).view.loc (c : Thread nD τ) ↦{fullShare.left} sent m ρ c) := by
  rw [payload_send]; unfold sendPay; rw [sPts_eq]
theorem payload_recv_own (c : Dev nD) (d : Unit) : (sched (F := F) m ρ).payload (recvCell c) 0 d
    = ((rM : Memref sig .tc .vmem S256x256 .bf16).view.loc (c : Thread nD τ) ↦{fullShare} landed m ρ c) := by
  rw [payload_recv]; unfold recvPay; rw [rPts_eq]
theorem payload_recv_peer (c : Dev nD) (d : Unit) : (sched (F := F) m ρ).payload (recvCell (peer c)) 0 d
    = ((rM : Memref sig .tc .vmem S256x256 .bf16).view.loc (peer c : Thread nD τ) ↦{fullShare} sent m ρ c) := by
  rw [payload_recv_own]; unfold landed; rw [peer_peer]

omit [FloatOps F] in
theorem read_x (f : (cc0_stg0_0 : Ref sig .tc).ty.Contents (Elt F)) :
    (xM : Memref sig .tc .vmem S256x256 .f32).view.readAt (Elt F) r0.toLoadRect f = f :=
  Memref.readAt_unit_zero (Elt F) cc0_stg0_0 hz _ f

/-- After the store the send buffer holds the device's rounded rows, whatever it held. -/
theorem stored_eq (c : Dev nD) (fs0 : Buf (Elt F) ((c : Thread nD τ).loc cc0_scratch0)) :
    (sM : Memref sig .tc .vmem S256x256 .bf16).view.writes (Elt F) fs0
      [⟨r0, k0_pay2 ((xM : Memref sig .tc .vmem S256x256 .f32).view.readAt (Elt F) r0.toLoadRect (xstg m ρ c))⟩] = sent m ρ c := by
  rw [View.writes_singleton, read_x]
  exact Memref.write_access_unit_zero_univ (Elt F) cc0_scratch0 hz _ fs0 _

omit [FloatOps F] in
theorem read_s (f : (cc0_scratch0 : Ref sig .tc).ty.Contents (Elt F)) :
    (sM : Memref sig .tc .vmem S256x256 .bf16).view.readAt (Elt F) r0.toLoadRect f = f :=
  Memref.readAt_unit_zero (Elt F) cc0_scratch0 hz _ f
omit [FloatOps F] in
theorem read_r (f : (cc0_scratch1 : Ref sig .tc).ty.Contents (Elt F)) :
    (rM : Memref sig .tc .vmem S256x256 .bf16).view.readAt (Elt F) r0.toLoadRect f = f :=
  Memref.readAt_unit_zero (Elt F) cc0_scratch1 hz _ f

/-- After the last store the output's staging buffer holds the device's rounded rows plus its partner's, whatever it held. -/
theorem out_stored_eq (c : Dev nD) (g1 : Buf (Elt F) ((c : Thread nD τ).loc cc0_stg1_0)) :
    (oM : Memref sig .tc .vmem S256x256 .bf16).view.writes (Elt F) g1
      [⟨r0, k0_pay1 ((sM : Memref sig .tc .vmem S256x256 .bf16).view.readAt (Elt F) r0.toLoadRect (sent m ρ c))
          ((rM : Memref sig .tc .vmem S256x256 .bf16).view.readAt (Elt F) r0.toLoadRect (landed m ρ c))⟩] = outAt m ρ c := by
  rw [View.writes_singleton, read_s, read_r]
  exact Memref.write_access_unit_zero_univ (Elt F) cc0_stg1_0 hz _ g1 _

attribute [local sl_rounds] duties_bar duties_send duties_recv amount_bar amount_send amount_recv expect_bar expect_send expect_recv
  payload_bar_own payload_send_own payload_recv_own landed_eq sV_set rV_set
attribute [local sl_rounds high] payload_bar_peer payload_recv_peer
attribute [local sl_canon] dev1_eq dev2_eq

/-- The addressed-copy rule at the exchange's cells, the copy addressed to n = peer c (substituted, not rewritten): the
    left half of the send buffer is lent, the partner's receive buffer is owned outright; the send cell's duty hands the half
    back, the partner's receive cell's duty hands the partner its buffer at this device's rounded rows. -/
theorem wp_send_pair (c n : Dev nD) (hn : n = peer c) {hsc : (rV : Memref sig (Dev.tc n : Thread nD τ).2.kind .vmem S256x256 .bf16).view.ref.isScScratch = false}
    {hsrc : (sV : Memref sig .tc .vmem S256x256 .bf16).view.WordExact} {hdst : (rV : Memref sig .tc .vmem S256x256 .bf16).view.WordExact}
    {hsem : DmaTarget.Typed .vmem (.dma recvS.sem) (.remote (Dev.tc n : Thread nD τ) (rV : Memref sig .tc .vmem S256x256 .bf16) (.dma sendS.sem) hsc)}
    {α : Type} {Q : α → sProp 𝕄} {k : PUnit → Prog (TpuEff nD τ sig (Elt F) Λ₀ .tc) α}
    (fn : Buf (Elt F) ((rV : Memref sig .tc .vmem S256x256 .bf16).view.loc (peer c : Thread nD τ))) (W : Waits sig Unit) :
    iprop(cellInv ER (sched m ρ) (K (c, 1)) (sendCell c) ∗ cellInv ER (sched m ρ) (K (peer c, 2)) (recvCell (peer c))
        ∗ ((sV : Memref sig .tc .vmem S256x256 .bf16).view.loc (c : Thread nD τ) ↦[(sV : Memref sig .tc .vmem S256x256 .bf16).view.set]{fullShare.left} sent m ρ c)
        ∗ ((rV : Memref sig .tc .vmem S256x256 .bf16).view.loc (peer c : Thread nD τ) ↦[(rV : Memref sig .tc .vmem S256x256 .bf16).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sV (.remote (Dev.tc n : Thread nD τ) rV (.dma sendS.sem) hsc) (.dma recvS.sem) hsrc hdst hsem) k) Q) := by
  subst hn
  exact Rounds.wp_send_pointsTo 𝒱₀ ER (sched m ρ) (c : Thread nD τ) none (c' := (peer c : Thread nD τ))
    (src := (sV : Memref sig .tc .vmem S256x256 .bf16)) (dst := (rV : Memref sig .tc .vmem S256x256 .bf16))
    (sS := .dma sendS.sem) (sem := .dma recvS.sem) (κ₁ := K (c, 1)) (κ₂ := K (peer c, 2))
    (r₁ := 0) (r₂ := 0) (d₁ := ()) (d₂ := ()) (q := fullShare.left) (fs := sent m ρ c) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay sPts; exact BI.Entails.refl _)
    (by rw [payload_recv]; unfold recvPay rPts; rw [landed_eq, landed, peer_peer])

set_option maxHeartbeats 1600000 in
/-- The body, from bodyPre to bodyPost. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs scratch
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  have hmw := mayWait_bar (F := F) c
  -- the four buffers, each through its memref's view
  have es : ((((c : Thread nD τ).loc cc0_scratch0) ↦{fullShare} fs0 : sProp 𝕄))
      = ((sM : Memref sig .tc .vmem S256x256 .bf16).view.loc (c : Thread nD τ) ↦{fullShare} fs0) := rfl
  have er : ((((c : Thread nD τ).loc cc0_scratch1) ↦{fullShare} fr0 : sProp 𝕄))
      = ((rM : Memref sig .tc .vmem S256x256 .bf16).view.loc (c : Thread nD τ) ↦{fullShare} fr0) := rfl
  have ex : ((((c : Thread nD τ).loc cc0_stg0_0) ↦{fullShare} xstg m ρ c : sProp 𝕄))
      = ((xM : Memref sig .tc .vmem S256x256 .f32).view.loc (c : Thread nD τ) ↦{fullShare} xstg m ρ c) := rfl
  have eo : ((((c : Thread nD τ).loc cc0_stg1_0) ↦{fullShare} g1 : sProp 𝕄))
      = ((oM : Memref sig .tc .vmem S256x256 .bf16).view.loc (c : Thread nD τ) ↦{fullShare} g1) := rfl
  ihave Hsb := (Entails.of_eq es) $$ Hs
  ihave Hrb := (Entails.of_eq er) $$ Hr
  ihave Hxb := (Entails.of_eq ex) $$ Hx
  ihave Hob := (Entails.of_eq eo) $$ Hout
  clear es er ex eo
  sl_exec
  -- the send buffer now holds the rounded rows; its left half is lent to the copy, its right half stays
  have est := congrArg (fun g => ((sM : Memref sig .tc .vmem S256x256 .bf16).view.loc (c : Thread nD τ) ↦{fullShare} g : sProp 𝕄)) (stored_eq m ρ c fs0)
  ihave Hsc := (Entails.of_eq est) $$ Hsb
  clear est
  ihave Hs2 := (pointsTo_share (PosShare.mem_left_op_right fullShare)).1 $$ Hsc
  icases Hs2 with ⟨HsL, HsR⟩
  -- the copy's two ends, each over the copy's own view of its buffer
  have e1 : ((((sM : Memref sig .tc .vmem S256x256 .bf16).view.loc (c : Thread nD τ) ↦{fullShare.left} sent m ρ c : sProp 𝕄)))
      = ((sV : Memref sig .tc .vmem S256x256 .bf16).view.loc (c : Thread nD τ) ↦[(sV : Memref sig .tc .vmem S256x256 .bf16).view.set]{fullShare.left} sent m ρ c) :=
    (sPts_eq fullShare.left c (sent m ρ c)).symm
  have e2 : ((((rM : Memref sig .tc .vmem S256x256 .bf16).view.loc (peer c : Thread nD τ) ↦{fullShare} HatB_pay1_v : sProp 𝕄)))
      = ((rV : Memref sig .tc .vmem S256x256 .bf16).view.loc (peer c : Thread nD τ) ↦[(rV : Memref sig .tc .vmem S256x256 .bf16).view.set]{fullShare} HatB_pay1_v) :=
    (rPts_eq (peer c) HatB_pay1_v).symm
  ihave HsL := (Entails.of_eq e1) $$ HsL
  ihave Hdst := (Entails.of_eq e2) $$ HatB_pay1
  clear e1 e2
  -- the copy into the partner's receive buffer
  iapply (wp_send_pair m ρ K c _ (dev2_eq c) HatB_pay1_v (insert (SemLoc.reg barS, ()) W)) $$ [HsL Hdst HO HtS HtVP]
  · isplitr; · iexact HIsnd
    isplitr; · iexact HIrcvP
    isplitl [HsL]; · iexact HsL
    isplitl [Hdst]; · iexact Hdst
    isplitl [HO]; · iexact HO
    isplitl [HtS]; · iexact HtS
    isplitr; · iexact HrS
    isplitl [HtVP]; · iexact HtVP
    iexact HrVP
  iintro ⟨HcS, HO⟩
  sl_exec
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  -- the two halves of the send buffer rejoin
  ihave Hsf := (pointsTo_share (PosShare.mem_left_op_right fullShare)).2 $$ [HatS_pay1 HsR]
  · isplitl [HatS_pay1]; · iexact HatS_pay1
    iexact HsR
  -- the output's staging buffer holds the sum
  have eout := congrArg (fun g => ((oM : Memref sig .tc .vmem S256x256 .bf16).view.loc (c : Thread nD τ) ↦{fullShare} g : sProp 𝕄)) (out_stored_eq m ρ c g1)
  ihave Hof := (Entails.of_eq eout) $$ Hob
  clear eout
  rw [wp_ret]; imodintro
  iapply Hk
  unfold bodyPost Φ₁ scratch Dat.owesAt Pipeline.owesWithin
  rw [show (dats m ρ 0 c).owed t₀.succ = 0 from rfl]
  isplitl [Hsf HatV_pay1 HzS HzV]
  · isplitl [Hsf HatV_pay1]
    · isplitl [Hsf]
      · iexists _; iexact Hsf
      · iexists _; iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hxb]
  · iexists _; isplitr; · (ipureintro; rfl)
    iexact Hxb
  iexists _; isplitr; · (ipureintro; rfl)
  iexact Hof

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.Kernel.Exchange.body_obligation' depends on axioms: [propext, Classical.choice, Quot.sound] -/
#guard_msgs in #print axioms body_obligation

end Body

end Cert.Kernel.Exchange

end
-- ==== Proof.Kernel.Run.lean ====
/-
  The pairwise exchange behind the all-reduce, part 3: the launch and the run.

  The exchange's cells (three a device) and duty tokens (one a cell) are funded by one launch element; every device's own
  and barrier counters, all at zero, become the cells' invariants in ONE update over all devices, because a device's
  barrier cell is touched by its partner too; the tokens are then dealt along the pairing: a device keeps its send token
  and gets its partner's barrier and receive tokens.  What a device owes at launch is matched by the credit its partner's
  cells are dealt.  Every fair execution then terminates, device c's result array holding its rounded rows plus its
  partner's, its argument array unchanged.
-/
import proofs.«900144_g7700000000000145_dist_ar_v7x_xy2x2_y_m256_n256_bf16_1_alg».proof.Proof.Kernel.Body
import proofs.«900144_g7700000000000145_dist_ar_v7x_xy2x2_y_m256_n256_bf16_1_alg».proof.Proof.Gen.Kernel.Points

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt along the pairing: a barrier token and a receive token go to the partner, the send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device d owes device c's receive cell: the buffer's credit if d is c's partner. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's two windowed arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The final arrays -/

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds the device's rounded rows plus its partner's: the one write-back, of the whole
    array, of what the body left in the output's staging buffer. -/
theorem finalA_out (c : Dev nD) : finalA m ρ c (1 : Fin 2) = outAt m ρ c := by
  unfold finalA
  have hN : cfg0.N = t₀.val + 1 := cfg0_N
  rw [hN, Dat.arrAt_succ, if_pos (flush0_1 t₀)]
  exact Memref.write_access_unit_zero_univ (Elt F) main_v1 (off := fun a => win0_1.index t₀ a * win0_1.size a)
    (funext fun a => by show (0 : ℕ) * _ = 0; exact Nat.zero_mul _) _ _ _

/-- info: 'Cert.Kernel.Exchange.run_main' depends on axioms: [propext, Classical.choice, Quot.sound] -/
#guard_msgs in #print axioms run_main

end Cert.Kernel.Exchange

end
-- ==== Proof.KernelIdeal.Sched.lean ====
/-
  The pairwise exchange behind the all-reduce, part 1: the protocol.

  Four devices on a 2 x 2 mesh; device c = 2 a + b holds the 256 rows of x that its second coordinate b selects.
  Its partner is the device with the same first coordinate and the other second coordinate, peer c = 2 a + (1 - b):
  an involution without fixed points.  Every device rounds its rows to bf16 into a send buffer, tells its partner
  that it has entered (one unit on the partner's barrier semaphore), waits for the partner's unit, copies the send
  buffer into the partner's receive buffer, waits for the partner's copy to land in its own receive buffer, stores
  send + receive, and waits for its own copy to have been read.

  Three semaphores a device: the barrier semaphore (one duty of one unit, paid by the partner's signal: it hands over
  the partner's receive buffer and that the partner stands at round 0 of its receive semaphore), the send semaphore
  (one duty of the buffer's credit, paid by the device's own copy once its source is read: it hands back the share of
  the send buffer lent to the copy), the receive semaphore (one duty of the buffer's credit, paid by the partner's
  copy: it hands over the receive buffer holding the partner's rounded rows).  The send buffer is read by the device
  while its copy is in flight, so only HALF of it is lent to the copy; the other half stays with the device.

  A device owes, at launch, the partner's receive credit and the partner's barrier unit.  Levels: barrier cells 1,
  receive cells 2, everything else 0; a device waits on its barrier cell owing a receive cell only.
-/
import proofs.«900144_g7700000000000145_dist_ar_v7x_xy2x2_y_m256_n256_bf16_1_alg».proof.Proof.Gen.KernelIdeal
import proofs.«900144_g7700000000000145_dist_ar_v7x_xy2x2_y_m256_n256_bf16_1_alg».proof.Proof.Gen.KernelIdeal.Skeleton
import proofs.«900144_g7700000000000145_dist_ar_v7x_xy2x2_y_m256_n256_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- The device with the same first mesh coordinate and the other second one. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- Both device chains of the body (the signal's and the copy's) name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pairing : Dev nD ≃ Dev nD := ⟨peer, peer, peer_peer, peer_peer⟩

/-! ## The memrefs and cells -/

abbrev r0 : Rect S256x256 := Rect.unit (s := S256x256) ![0, 0] S256x256.size inb_S256x256_S256x256_0_0

abbrev xM : Memref sig .tc .vmem S256x256 .f32 := Memref.whole cc0_stg0_0
abbrev oM : Memref sig .tc .vmem S256x256 .bf16 := Memref.whole cc0_stg1_0
abbrev sM : Memref sig .tc .vmem S256x256 .bf16 := Memref.whole cc0_scratch0
abbrev rM : Memref sig .tc .vmem S256x256 .bf16 := Memref.whole cc0_scratch1
/-- The copy's two ends: all of the send buffer, all of the receive buffer, each through the rectangle at the origin. -/
abbrev sV : Memref sig .tc .vmem S256x256 .bf16 := sM.slice r0 (fun _ => rfl)
abbrev rV : Memref sig .tc .vmem S256x256 .bf16 := rM.slice r0 (fun _ => rfl)

abbrev barS : Sem sig := (SemArray.scalar (sig.barrier 0 rfl) : Sems sig S_).sem
abbrev sendS : DmaSems sig S_ := (cc0_scratch2.slice (Rect.unit (s := S1) ![0] S1.size inb_S1_S1_0)).squeeze S_ squeezes_S1_S_
abbrev recvS : DmaSems sig S_ := (cc0_scratch3.slice (Rect.unit (s := S1) ![0] S1.size inb_S1_S1_0)).squeeze S_ squeezes_S1_S_

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rV : Memref sig .tc .vmem S256x256 .bf16).view.dmaCredit
theorem N_pos : 0 < N := View.dmaCredit_pos _ (by decide)

/-! ## Contents -/

omit [FloatOps F] in
theorem hz : (![0, 0] : Fin 2 → Nat) = fun _ => 0 := funext fun a => by fin_cases a <;> rfl

/-- Device c's rows of x, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))

/-- What device c sends: its rows rounded to bf16. -/
def sent (c : Dev nD) : (cc0_scratch0 : Ref sig .tc).ty.Contents (Elt F) := k0_pay2 (xstg m ρ c)

/-- What lands in device c's receive buffer: its partner's rounded rows. -/
def landed (c : Dev nD) : Buf (Elt F) ((rV : Memref sig .tc .vmem S256x256 .bf16).view.loc (c : Thread nD τ)) := sent m ρ (peer c)

/-- The result on device c: its own rounded rows plus its partner's. -/
def outAt (c : Dev nD) : (cc0_stg1_0 : Ref sig .tc).ty.Contents (Elt F) := k0_pay1 (sent m ρ c) (sent m ρ (peer c))

omit [FloatOps F] in
/-- The rectangle of a buffer's own sizes at the origin covers the buffer, however the zero offsets are spelt. -/
theorem set_access_unit_zero (b : Ref sig .tc) {off : Fin b.ty.shape.rank → Nat} (h : off = fun _ => 0)
    (inb : ∀ a, off a + b.ty.shape.size a ≤ b.ty.shape.size a) :
    ((Memref.whole b).access (Rect.unit off b.ty.shape.size inb) : View sig .tc _ _ _).set = Finset.univ := by
  subst h; exact Memref.set_access_whole b
omit [FloatOps F] in
theorem sV_set : (sV : Memref sig .tc .vmem S256x256 .bf16).view.set = Finset.univ :=
  set_access_unit_zero cc0_scratch0 hz _
omit [FloatOps F] in
theorem rV_set : (rV : Memref sig .tc .vmem S256x256 .bf16).view.set = Finset.univ :=
  set_access_unit_zero cc0_scratch1 hz _

omit [FloatOps F] in
/-- A whole send buffer copied over a whole receive buffer leaves the send buffer's contents there. -/
theorem landed_eq (c : Dev nD) (fd : Buf (Elt F) ((rV : Memref sig .tc .vmem S256x256 .bf16).view.loc (c : Thread nD τ)))
    (fs : (cc0_scratch0 : Ref sig .tc).ty.Contents (Elt F)) :
    (rV : Memref sig .tc .vmem S256x256 .bf16).view.write (Elt F) fd ((sV : Memref sig .tc .vmem S256x256 .bf16).view.read (Elt F) fs) Finset.univ = fs := by
  show ((Memref.whole cc0_scratch1).access r0 : View sig .tc _ _ _).write (Elt F) fd
    (((Memref.whole cc0_scratch0).access r0 : View sig .tc _ _ _).read (Elt F) fs) Finset.univ = fs
  refine (congrArg (fun w => ((Memref.whole cc0_scratch1).access r0 : View sig .tc _ _ _).write (Elt F) fd w Finset.univ)
    (Memref.read_access_unit_zero (Elt F) cc0_scratch0 hz _ fs)).trans ?_
  exact Memref.write_access_unit_zero_univ (Elt F) cc0_scratch1 hz _ fd fs

/-- The receive buffer of device c, whole, at contents f; the send buffer at share q. -/
def rPts (c : Dev nD) (f : Buf (Elt F) ((rV : Memref sig .tc .vmem S256x256 .bf16).view.loc (c : Thread nD τ))) : sProp 𝕄 :=
  (rV : Memref sig .tc .vmem S256x256 .bf16).view.loc (c : Thread nD τ) ↦[(rV : Memref sig .tc .vmem S256x256 .bf16).view.set]{fullShare} f
def sPts (q : PosShare TreeShare) (c : Dev nD) (f : Buf (Elt F) ((sV : Memref sig .tc .vmem S256x256 .bf16).view.loc (c : Thread nD τ))) : sProp 𝕄 :=
  (sV : Memref sig .tc .vmem S256x256 .bf16).view.loc (c : Thread nD τ) ↦[(sV : Memref sig .tc .vmem S256x256 .bf16).view.set]{q} f

omit [FloatOps F] in
instance rPts_storable (c : Dev nD) (f) : BI.Storable (upEmb : UEmb _ 𝕄) (rPts (F := F) c f) := by unfold rPts; infer_instance
omit [FloatOps F] in
instance sPts_storable (q : PosShare TreeShare) (c : Dev nD) (f) : BI.Storable (upEmb : UEmb _ 𝕄) (sPts (F := F) q c f) := by unfold sPts; infer_instance

omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [rV_set]
omit [FloatOps F] in
theorem sPts_eq (q : PosShare TreeShare) (c : Dev nD) (f : Buf (Elt F) ((c : Thread nD τ).loc cc0_scratch0)) :
    sPts q c f = (((c : Thread nD τ).loc cc0_scratch0) ↦{q} f : sProp 𝕄) := by unfold sPts; rw [sV_set]

/-! ## The schedule -/

/-- What the partner's signal hands device c: the partner's receive buffer and that the partner stands at round 0 of its
    receive cell (what c's copy into it needs). -/
def barPay (c : Dev nD) : sProp 𝕄 := iprop((∃ f, rPts (peer c) f) ∗ reached ER (recvCell (peer c)) 0)
/-- What the partner's copy hands device c: its receive buffer at the partner's rounded rows. -/
def recvPay (c : Dev nD) : sProp 𝕄 := rPts c (landed m ρ c)
/-- What device c's own copy hands back: the half of the send buffer lent to it. -/
def sendPay (c : Dev nD) : sProp 𝕄 := sPts fullShare.left c (sent m ρ c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty a cell: a barrier cell's of one unit, a send or receive cell's of the buffer's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, .inl ⟨rfl, rfl⟩⟩
theorem duties_send : (sched (F := F) m ρ).duties (sendCell c) 0 = {()} := by dsimp only [sched]; exact if_pos ⟨rfl, .inr ⟨rfl, .inl rfl⟩⟩
theorem duties_recv : (sched (F := F) m ρ).duties (recvCell c) 0 = {()} := by dsimp only [sched]; exact if_pos ⟨rfl, .inr ⟨rfl, .inr rfl⟩⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device c owes its partner's receive cell the buffer's credit and its partner's barrier cell one unit (the signal, which
    comes first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging or send cell (level 0) may be waited on whatever of the launch debt is left. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names K the launch allocated them at: its own three, its
    partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The exchange's ghost state device c starts from: the invariants; its positions at round 0 of its three cells; round 0
    reached of the cells it pays and of its own send and receive cells; the three duty tokens it pays with (its partner's
    barrier duty, its partner's receive duty, its own send duty). -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from: that at some names, the credit of its barrier cell's unit and of its receive cell's
    copy, and the level facts. -/
def start (c : Dev nD) : sProp 𝕄 :=
  iprop((∃ K, ghost m ρ K c) ∗ cred (tallyAt (barCell c) () 1) ∗ cred (tallyAt (recvCell c) () N) ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers back whole, the two own cells at zero, closed. -/
def Φ₁ (c : Dev nD) : sProp 𝕄 := iprop(scratch c ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Exchange

end
-- ==== Proof.KernelIdeal.Body.lean ====
/-
  The pairwise exchange behind the all-reduce, part 2: one device's body.

  From its share of the exchange's ghost state, the two staging buffers and the two scratch buffers, device c
  signals its partner's barrier cell (handing over its receive buffer), rounds its rows into the send buffer, waits for
  its partner's signal (receiving the partner's receive buffer), lends the LEFT half of the send buffer to the copy into
  the partner's receive buffer, waits for the partner's copy (its receive buffer comes back holding the partner's rounded
  rows), reads the send buffer through the RIGHT half it kept and the receive buffer, stores their sum in the output's
  staging buffer, waits for its own copy to have been read (the left half comes back) and joins the two halves.
-/
import proofs.«900144_g7700000000000145_dist_ar_v7x_xy2x2_y_m256_n256_bf16_1_alg».proof.Proof.KernelIdeal.Sched

noncomputable section

namespace Cert.KernelIdeal.Exchange

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The tables as the run reads them: each payload as the points-to it is, over the whole buffer, the partner's partner resolved. -/
theorem payload_bar_own (c : Dev nD) (d : Unit) : (sched (F := F) m ρ).payload (barCell c) 0 d
    = iprop((∃ f, (rM : Memref sig .tc .vmem S256x256 .bf16).view.loc (peer c : Thread nD τ) ↦{fullShare} f) ∗ reached ER (recvCell (peer c)) 0) := by
  rw [payload_bar]; unfold barPay; simp only [rPts_eq]
theorem payload_bar_peer (c : Dev nD) (d : Unit) : (sched (F := F) m ρ).payload (barCell (peer c)) 0 d
    = iprop((∃ f, (rM : Memref sig .tc .vmem S256x256 .bf16).view.loc (c : Thread nD τ) ↦{fullShare} f) ∗ reached ER (recvCell c) 0) := by
  rw [payload_bar_own, peer_peer]
theorem payload_send_own (c : Dev nD) (d : Unit) : (sched (F := F) m ρ).payload (sendCell c) 0 d
    = ((sM : Memref sig .tc .vmem S256x256 .bf16).view.loc (c : Thread nD τ) ↦{fullShare.left} sent m ρ c) := by
  rw [payload_send]; unfold sendPay; rw [sPts_eq]
theorem payload_recv_own (c : Dev nD) (d : Unit) : (sched (F := F) m ρ).payload (recvCell c) 0 d
    = ((rM : Memref sig .tc .vmem S256x256 .bf16).view.loc (c : Thread nD τ) ↦{fullShare} landed m ρ c) := by
  rw [payload_recv]; unfold recvPay; rw [rPts_eq]
theorem payload_recv_peer (c : Dev nD) (d : Unit) : (sched (F := F) m ρ).payload (recvCell (peer c)) 0 d
    = ((rM : Memref sig .tc .vmem S256x256 .bf16).view.loc (peer c : Thread nD τ) ↦{fullShare} sent m ρ c) := by
  rw [payload_recv_own]; unfold landed; rw [peer_peer]

omit [FloatOps F] in
theorem read_x (f : (cc0_stg0_0 : Ref sig .tc).ty.Contents (Elt F)) :
    (xM : Memref sig .tc .vmem S256x256 .f32).view.readAt (Elt F) r0.toLoadRect f = f :=
  Memref.readAt_unit_zero (Elt F) cc0_stg0_0 hz _ f

/-- After the store the send buffer holds the device's rounded rows, whatever it held. -/
theorem stored_eq (c : Dev nD) (fs0 : Buf (Elt F) ((c : Thread nD τ).loc cc0_scratch0)) :
    (sM : Memref sig .tc .vmem S256x256 .bf16).view.writes (Elt F) fs0
      [⟨r0, k0_pay2 ((xM : Memref sig .tc .vmem S256x256 .f32).view.readAt (Elt F) r0.toLoadRect (xstg m ρ c))⟩] = sent m ρ c := by
  rw [View.writes_singleton, read_x]
  exact Memref.write_access_unit_zero_univ (Elt F) cc0_scratch0 hz _ fs0 _

omit [FloatOps F] in
theorem read_s (f : (cc0_scratch0 : Ref sig .tc).ty.Contents (Elt F)) :
    (sM : Memref sig .tc .vmem S256x256 .bf16).view.readAt (Elt F) r0.toLoadRect f = f :=
  Memref.readAt_unit_zero (Elt F) cc0_scratch0 hz _ f
omit [FloatOps F] in
theorem read_r (f : (cc0_scratch1 : Ref sig .tc).ty.Contents (Elt F)) :
    (rM : Memref sig .tc .vmem S256x256 .bf16).view.readAt (Elt F) r0.toLoadRect f = f :=
  Memref.readAt_unit_zero (Elt F) cc0_scratch1 hz _ f

/-- After the last store the output's staging buffer holds the device's rounded rows plus its partner's, whatever it held. -/
theorem out_stored_eq (c : Dev nD) (g1 : Buf (Elt F) ((c : Thread nD τ).loc cc0_stg1_0)) :
    (oM : Memref sig .tc .vmem S256x256 .bf16).view.writes (Elt F) g1
      [⟨r0, k0_pay1 ((sM : Memref sig .tc .vmem S256x256 .bf16).view.readAt (Elt F) r0.toLoadRect (sent m ρ c))
          ((rM : Memref sig .tc .vmem S256x256 .bf16).view.readAt (Elt F) r0.toLoadRect (landed m ρ c))⟩] = outAt m ρ c := by
  rw [View.writes_singleton, read_s, read_r]
  exact Memref.write_access_unit_zero_univ (Elt F) cc0_stg1_0 hz _ g1 _

attribute [local sl_rounds] duties_bar duties_send duties_recv amount_bar amount_send amount_recv expect_bar expect_send expect_recv
  payload_bar_own payload_send_own payload_recv_own landed_eq sV_set rV_set
attribute [local sl_rounds high] payload_bar_peer payload_recv_peer
attribute [local sl_canon] dev1_eq dev2_eq

/-- The addressed-copy rule at the exchange's cells, the copy addressed to n = peer c (substituted, not rewritten): the
    left half of the send buffer is lent, the partner's receive buffer is owned outright; the send cell's duty hands the half
    back, the partner's receive cell's duty hands the partner its buffer at this device's rounded rows. -/
theorem wp_send_pair (c n : Dev nD) (hn : n = peer c) {hsc : (rV : Memref sig (Dev.tc n : Thread nD τ).2.kind .vmem S256x256 .bf16).view.ref.isScScratch = false}
    {hsrc : (sV : Memref sig .tc .vmem S256x256 .bf16).view.WordExact} {hdst : (rV : Memref sig .tc .vmem S256x256 .bf16).view.WordExact}
    {hsem : DmaTarget.Typed .vmem (.dma recvS.sem) (.remote (Dev.tc n : Thread nD τ) (rV : Memref sig .tc .vmem S256x256 .bf16) (.dma sendS.sem) hsc)}
    {α : Type} {Q : α → sProp 𝕄} {k : PUnit → Prog (TpuEff nD τ sig (Elt F) Λ₀ .tc) α}
    (fn : Buf (Elt F) ((rV : Memref sig .tc .vmem S256x256 .bf16).view.loc (peer c : Thread nD τ))) (W : Waits sig Unit) :
    iprop(cellInv ER (sched m ρ) (K (c, 1)) (sendCell c) ∗ cellInv ER (sched m ρ) (K (peer c, 2)) (recvCell (peer c))
        ∗ ((sV : Memref sig .tc .vmem S256x256 .bf16).view.loc (c : Thread nD τ) ↦[(sV : Memref sig .tc .vmem S256x256 .bf16).view.set]{fullShare.left} sent m ρ c)
        ∗ ((rV : Memref sig .tc .vmem S256x256 .bf16).view.loc (peer c : Thread nD τ) ↦[(rV : Memref sig .tc .vmem S256x256 .bf16).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sV (.remote (Dev.tc n : Thread nD τ) rV (.dma sendS.sem) hsc) (.dma recvS.sem) hsrc hdst hsem) k) Q) := by
  subst hn
  exact Rounds.wp_send_pointsTo 𝒱₀ ER (sched m ρ) (c : Thread nD τ) none (c' := (peer c : Thread nD τ))
    (src := (sV : Memref sig .tc .vmem S256x256 .bf16)) (dst := (rV : Memref sig .tc .vmem S256x256 .bf16))
    (sS := .dma sendS.sem) (sem := .dma recvS.sem) (κ₁ := K (c, 1)) (κ₂ := K (peer c, 2))
    (r₁ := 0) (r₂ := 0) (d₁ := ()) (d₂ := ()) (q := fullShare.left) (fs := sent m ρ c) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay sPts; exact BI.Entails.refl _)
    (by rw [payload_recv]; unfold recvPay rPts; rw [landed_eq, landed, peer_peer])

set_option maxHeartbeats 1600000 in
/-- The body, from bodyPre to bodyPost. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs scratch
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  have hmw := mayWait_bar (F := F) c
  -- the four buffers, each through its memref's view
  have es : ((((c : Thread nD τ).loc cc0_scratch0) ↦{fullShare} fs0 : sProp 𝕄))
      = ((sM : Memref sig .tc .vmem S256x256 .bf16).view.loc (c : Thread nD τ) ↦{fullShare} fs0) := rfl
  have er : ((((c : Thread nD τ).loc cc0_scratch1) ↦{fullShare} fr0 : sProp 𝕄))
      = ((rM : Memref sig .tc .vmem S256x256 .bf16).view.loc (c : Thread nD τ) ↦{fullShare} fr0) := rfl
  have ex : ((((c : Thread nD τ).loc cc0_stg0_0) ↦{fullShare} xstg m ρ c : sProp 𝕄))
      = ((xM : Memref sig .tc .vmem S256x256 .f32).view.loc (c : Thread nD τ) ↦{fullShare} xstg m ρ c) := rfl
  have eo : ((((c : Thread nD τ).loc cc0_stg1_0) ↦{fullShare} g1 : sProp 𝕄))
      = ((oM : Memref sig .tc .vmem S256x256 .bf16).view.loc (c : Thread nD τ) ↦{fullShare} g1) := rfl
  ihave Hsb := (Entails.of_eq es) $$ Hs
  ihave Hrb := (Entails.of_eq er) $$ Hr
  ihave Hxb := (Entails.of_eq ex) $$ Hx
  ihave Hob := (Entails.of_eq eo) $$ Hout
  clear es er ex eo
  sl_exec
  -- the send buffer now holds the rounded rows; its left half is lent to the copy, its right half stays
  have est := congrArg (fun g => ((sM : Memref sig .tc .vmem S256x256 .bf16).view.loc (c : Thread nD τ) ↦{fullShare} g : sProp 𝕄)) (stored_eq m ρ c fs0)
  ihave Hsc := (Entails.of_eq est) $$ Hsb
  clear est
  ihave Hs2 := (pointsTo_share (PosShare.mem_left_op_right fullShare)).1 $$ Hsc
  icases Hs2 with ⟨HsL, HsR⟩
  -- the copy's two ends, each over the copy's own view of its buffer
  have e1 : ((((sM : Memref sig .tc .vmem S256x256 .bf16).view.loc (c : Thread nD τ) ↦{fullShare.left} sent m ρ c : sProp 𝕄)))
      = ((sV : Memref sig .tc .vmem S256x256 .bf16).view.loc (c : Thread nD τ) ↦[(sV : Memref sig .tc .vmem S256x256 .bf16).view.set]{fullShare.left} sent m ρ c) :=
    (sPts_eq fullShare.left c (sent m ρ c)).symm
  have e2 : ((((rM : Memref sig .tc .vmem S256x256 .bf16).view.loc (peer c : Thread nD τ) ↦{fullShare} HatB_pay1_v : sProp 𝕄)))
      = ((rV : Memref sig .tc .vmem S256x256 .bf16).view.loc (peer c : Thread nD τ) ↦[(rV : Memref sig .tc .vmem S256x256 .bf16).view.set]{fullShare} HatB_pay1_v) :=
    (rPts_eq (peer c) HatB_pay1_v).symm
  ihave HsL := (Entails.of_eq e1) $$ HsL
  ihave Hdst := (Entails.of_eq e2) $$ HatB_pay1
  clear e1 e2
  -- the copy into the partner's receive buffer
  iapply (wp_send_pair m ρ K c _ (dev2_eq c) HatB_pay1_v (insert (SemLoc.reg barS, ()) W)) $$ [HsL Hdst HO HtS HtVP]
  · isplitr; · iexact HIsnd
    isplitr; · iexact HIrcvP
    isplitl [HsL]; · iexact HsL
    isplitl [Hdst]; · iexact Hdst
    isplitl [HO]; · iexact HO
    isplitl [HtS]; · iexact HtS
    isplitr; · iexact HrS
    isplitl [HtVP]; · iexact HtVP
    iexact HrVP
  iintro ⟨HcS, HO⟩
  sl_exec
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  -- the two halves of the send buffer rejoin
  ihave Hsf := (pointsTo_share (PosShare.mem_left_op_right fullShare)).2 $$ [HatS_pay1 HsR]
  · isplitl [HatS_pay1]; · iexact HatS_pay1
    iexact HsR
  -- the output's staging buffer holds the sum
  have eout := congrArg (fun g => ((oM : Memref sig .tc .vmem S256x256 .bf16).view.loc (c : Thread nD τ) ↦{fullShare} g : sProp 𝕄)) (out_stored_eq m ρ c g1)
  ihave Hof := (Entails.of_eq eout) $$ Hob
  clear eout
  rw [wp_ret]; imodintro
  iapply Hk
  unfold bodyPost Φ₁ scratch Dat.owesAt Pipeline.owesWithin
  rw [show (dats m ρ 0 c).owed t₀.succ = 0 from rfl]
  isplitl [Hsf HatV_pay1 HzS HzV]
  · isplitl [Hsf HatV_pay1]
    · isplitl [Hsf]
      · iexists _; iexact Hsf
      · iexists _; iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hxb]
  · iexists _; isplitr; · (ipureintro; rfl)
    iexact Hxb
  iexists _; isplitr; · (ipureintro; rfl)
  iexact Hof

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.Exchange.body_obligation' depends on axioms: [propext, Classical.choice, Quot.sound] -/
#guard_msgs in #print axioms body_obligation

end Body

end Cert.KernelIdeal.Exchange

end
-- ==== Proof.KernelIdeal.Run.lean ====
/-
  The pairwise exchange behind the all-reduce, part 3: the launch and the run.

  The exchange's cells (three a device) and duty tokens (one a cell) are funded by one launch element; every device's own
  and barrier counters, all at zero, become the cells' invariants in ONE update over all devices, because a device's
  barrier cell is touched by its partner too; the tokens are then dealt along the pairing: a device keeps its send token
  and gets its partner's barrier and receive tokens.  What a device owes at launch is matched by the credit its partner's
  cells are dealt.  Every fair execution then terminates, device c's result array holding its rounded rows plus its
  partner's, its argument array unchanged.
-/
import proofs.«900144_g7700000000000145_dist_ar_v7x_xy2x2_y_m256_n256_bf16_1_alg».proof.Proof.KernelIdeal.Body
import proofs.«900144_g7700000000000145_dist_ar_v7x_xy2x2_y_m256_n256_bf16_1_alg».proof.Proof.Gen.KernelIdeal.Points

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt along the pairing: a barrier token and a receive token go to the partner, the send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device d owes device c's receive cell: the buffer's credit if d is c's partner. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's two windowed arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The final arrays -/

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds the device's rounded rows plus its partner's: the one write-back, of the whole
    array, of what the body left in the output's staging buffer. -/
theorem finalA_out (c : Dev nD) : finalA m ρ c (1 : Fin 2) = outAt m ρ c := by
  unfold finalA
  have hN : cfg0.N = t₀.val + 1 := cfg0_N
  rw [hN, Dat.arrAt_succ, if_pos (flush0_1 t₀)]
  exact Memref.write_access_unit_zero_univ (Elt F) main_v1 (off := fun a => win0_1.index t₀ a * win0_1.size a)
    (funext fun a => by show (0 : ℕ) * _ = 0; exact Nat.zero_mul _) _ _ _

/-- info: 'Cert.KernelIdeal.Exchange.run_main' depends on axioms: [propext, Classical.choice, Quot.sound] -/
#guard_msgs in #print axioms run_main

end Cert.KernelIdeal.Exchange

end
-- ==== Proof.ValueBridge.lean ====
/-
  The value of the pairwise exchange against the reference.

  Four devices c = 0..3 on a 2 x 2 mesh; X is the reference's array of 512 rows and 256 columns. Device c holds the
  block b = c % 2 of X along the rows: x_c(p, q) = X(256 b + p, q). Its partner holds the other block. The kernel leaves
  on device c the sum of the two blocks, each rounded to bf16 first; the reference rounds 0 + X(p, q) + X(256 + p, q).
  At the extended reals a change of format is the identity and the zero word is 0, so the two agree: for b = 0 as
  written, for b = 1 by commutativity of the sum. No finiteness is used.
-/
import proofs.«900144_g7700000000000145_dist_ar_v7x_xy2x2_y_m256_n256_bf16_1_alg».proof.Defs
import proofs.«900144_g7700000000000145_dist_ar_v7x_xy2x2_y_m256_n256_bf16_1_alg».proof.Proof.KernelIdeal.Sched
import proofs.«900144_g7700000000000145_dist_ar_v7x_xy2x2_y_m256_n256_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Idealize.ShloMosaic.Signature.Memref
import Mathlib.Algebra.BigOperators.Fin

noncomputable section

namespace Cert.ValueBridge

open Idealize.ShloMosaic Idealize.ShloMosaic.TcCoe Idealize.SL.Sem
open Idealize.ShloMosaic.ValueIdx

/-! ## Which block a device holds -/

/-- The second mesh coordinate of device c: the block of rows it holds. -/
def par (c : Dev Cert.KernelIdeal.nD) : Fin 2 := ⟨c.val % 2, Nat.mod_lt _ (by decide)⟩

/-- A device and its partner hold the two different blocks. -/
theorem par_cases (c : Dev Cert.KernelIdeal.nD) :
    (par c = 0 ∧ par (Cert.KernelIdeal.Exchange.peer c) = 1) ∨ (par c = 1 ∧ par (Cert.KernelIdeal.Exchange.peer c) = 0) := by
  revert c; decide

/-- Device c's block coordinates: c % 2 along the rows, 0 along the columns (which are not cut). -/
theorem blockCoords (c : Dev Cert.KernelIdeal.nD) :
    ((Layout.meshBlock [2, 2] ![[1], []] c) 0).val = (par c).val ∧ ((Layout.meshBlock [2, 2] ![[1], []] c) 1).val = 0 := by
  revert c; decide

/-- Where the reference reads the summand k of the element (p, q): row 256 k + p, column q. -/
abbrev src (i : Cert.ReferenceIdeal.S256x256.Idx) (k : Fin 2) : Cert.ReferenceIdeal.S512x256.Idx :=
  Cert.ReferenceIdeal.Read.idx_main_v0 (Cert.ReferenceIdeal.Read.idx_main_v1 i k)

/-- Device c's block of X at (p, q) is X at row 256 (c % 2) + p, column q: the reference's summand c % 2. -/
theorem block_at (X : Cert.ReferenceIdeal.S512x256.Idx → EReal) (c : Dev Cert.KernelIdeal.nD) (i : Cert.ReferenceIdeal.S256x256.Idx) :
    (Layout.blockN ⟨2, ![256, 256]⟩ ⟨2, ![512, 256]⟩ (Layout.meshBlock [2, 2] ![[1], []] c) X) i = X (src i (par c)) := by
  rw [Layout.blockN_apply]
  refine congrArg X (funext fun a => Fin.ext ?_)
  have h0 : (i 0).val < 256 := (i 0).isLt
  have h1 : (i 1).val < 256 := (i 1).isLt
  have hp : (par c).val < 2 := (par c).isLt
  obtain ⟨hr, hc⟩ := blockCoords c
  match a with
  | ⟨0, _⟩ =>
    show ((Layout.meshBlock [2, 2] ![[1], []] c) 0).val * 256 + (i 0).val = (((par c).val * 256 + (i 0).val) * 256 + (i 1).val) / 256
    rw [hr]; omega
  | ⟨1, _⟩ =>
    show ((Layout.meshBlock [2, 2] ![[1], []] c) 1).val * 256 + (i 1).val = (((par c).val * 256 + (i 0).val) * 256 + (i 1).val) % 256
    rw [hc]; omega

/-! ## The kernel's side -/

/-- What the pipeline stages on device c is the device's argument buffer, whole. -/
theorem xstg_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Exchange.xstg (F := Ideal) m ρ c
      = m ((c.tc : Thread Cert.KernelIdeal.nD Cert.KernelIdeal.τ).loc Cert.KernelIdeal.main_arg0) := by
  unfold Cert.KernelIdeal.Exchange.xstg
  exact Memref.read_access_unit_zero (Elt Ideal) Cert.KernelIdeal.main_arg0 (funext fun a => Nat.zero_mul _) _ _

/-- What device c sends, at an element: its rows there (the rounding is the identity). -/
theorem sent_at (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (i : Cert.KernelIdeal.S256x256.Idx) :
    (show EReal from Cert.KernelIdeal.Exchange.sent (F := Ideal) m ρ c i)
      = (show EReal from Cert.KernelIdeal.Exchange.xstg (F := Ideal) m ρ c i) := by
  unfold Cert.KernelIdeal.Exchange.sent Cert.KernelIdeal.Gen.k0_pay2
  refine (congrFun (shapeCast_self _ _) i).trans ?_
  refine (truncf_apply (φ := .f32) (ψ := .bf16) _ _ i).trans ?_
  exact congrFun (shapeCast_self _ _) i

/-- The result on device c at (p, q): its own block there plus the other block there. -/
theorem out_at (m : (ℓ : Loc Cert.KernelIdeal.nD Cert.KernelIdeal.τ Cert.KernelIdeal.sig) → Buf (Elt Ideal) ℓ) (ρ : Dev Cert.KernelIdeal.nD → PrngReg)
    (X : Cert.ReferenceIdeal.S512x256.Idx → EReal)
    (hX : ∀ d : Dev Cert.KernelIdeal.nD,
      m ((d.tc : Thread Cert.KernelIdeal.nD Cert.KernelIdeal.τ).loc Cert.KernelIdeal.main_arg0)
        = Layout.blockN ⟨2, ![256, 256]⟩ ⟨2, ![512, 256]⟩ (Layout.meshBlock [2, 2] ![[1], []] d) X)
    (c : Dev Cert.KernelIdeal.nD) (i : Cert.KernelIdeal.S256x256.Idx) :
    Cert.KernelIdeal.Exchange.outAt (F := Ideal) m ρ c i
      = X (src i (par c)) + X (src i (par (Cert.KernelIdeal.Exchange.peer c))) := by
  have hs : ∀ d : Dev Cert.KernelIdeal.nD,
      (show EReal from Cert.KernelIdeal.Exchange.sent (F := Ideal) m ρ d i) = X (src i (par d)) := fun d =>
    (sent_at m ρ d i).trans ((congrFun (xstg_eq m ρ d) i).trans ((congrFun (hX d) i).trans (block_at X d i)))
  unfold Cert.KernelIdeal.Exchange.outAt Cert.KernelIdeal.Gen.k0_pay1
  refine (addf_apply _ _ i).trans ?_
  exact congrArg₂ (fun a b : EReal => a + b) (hs c) (hs (Cert.KernelIdeal.Exchange.peer c))

/-! ## The reference's side -/

/-- The reference at (p, q): X(p, q) + X(256 + p, q); the rounding is the identity and the initial value is 0. -/
theorem ref_at (X : Cert.ReferenceIdeal.S512x256.Idx → EReal) (i : Cert.ReferenceIdeal.S256x256.Idx) :
    Cert.ReferenceIdeal.Read.val_main_v2 (F := Ideal) X i = X (src i 0) + X (src i 1) := by
  refine (Cert.ReferenceIdeal.Read.val_main_v2_apply (F := Ideal) X i).trans ?_
  refine (Ideal.truncf_def (φ := .f32) _ .bf16 _).trans ?_
  refine (Cert.ReferenceIdeal.Read.val_main_v1_apply X i).trans ?_
  rw [Fin.sum_univ_two, Cert.ReferenceIdeal.Read.val_main_v0_apply, Cert.ReferenceIdeal.Read.val_main_v0_apply,
    Cert.ReferenceIdeal.Read.val_main_cst_apply, Ideal.ofBits_def, Ideal.ofBits_zero_f32, zero_add]

/-! ## The two sides agree -/

/-- On every device the kernel's result is the reference's: as written where the device holds the first block, by
    commutativity of the sum where it holds the second. -/
theorem out_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.Exchange.outAt (F := Ideal) m ρ c
      = Cert.ReferenceIdeal.Read.val_main_v2 (F := Ideal) (m' (((0 : Dev Cert.ReferenceIdeal.nD).tc : Thread Cert.ReferenceIdeal.nD Cert.ReferenceIdeal.τ).loc Cert.ReferenceIdeal.main_arg0)) := by
  funext i
  refine (out_at m ρ _ hagree c i).trans ?_
  refine Eq.trans ?_ (ref_at _ i).symm
  rcases par_cases c with ⟨h0, h1⟩ | ⟨h0, h1⟩
  · rw [h0, h1]
  · rw [h0, h1]; exact add_comm (G := EReal) _ _

/-- info: 'Cert.ValueBridge.out_eq' depends on axioms: [propext, Classical.choice, Quot.sound] -/
#guard_msgs in #print axioms Cert.ValueBridge.out_eq

end Cert.ValueBridge

end
-- ==== Proof.lean ====
/-
  The certificate of the pairwise all-reduce on a 2 x 2 mesh.

  Each of the four devices holds 256 rows of x (the block its second mesh coordinate selects), rounds them to bf16,
  exchanges them with the device that holds the other block and adds: every device ends with the sum of the two blocks,
  which is what the reference computes on one device by reshaping x to two blocks and summing over the block axis.
  Over the extended reals the rounding is the identity and the sum of two terms does not depend on their order, so the
  two programs agree on every device and at every input; finiteness is not used.

  The three frames: the word-level and the idealized kernel run to the end on all four devices (the exchange's protocol:
  Proof/Kernel*/Sched, Body, Run) leaving x unchanged; the reference's run is its generated run.  The idealization
  rewrote nothing, so preserves is trivial.  The algebraic claim joins the idealized kernel's run, whose result array
  on device c is named, to the reference's result by the value module (Proof/ValueBridge).
-/
import proofs.«900144_g7700000000000145_dist_ar_v7x_xy2x2_y_m256_n256_bf16_1_alg».proof.Defs
import proofs.«900144_g7700000000000145_dist_ar_v7x_xy2x2_y_m256_n256_bf16_1_alg».proof.Proof.Gen.Kernel
import proofs.«900144_g7700000000000145_dist_ar_v7x_xy2x2_y_m256_n256_bf16_1_alg».proof.Proof.Gen.KernelIdeal
import proofs.«900144_g7700000000000145_dist_ar_v7x_xy2x2_y_m256_n256_bf16_1_alg».proof.Proof.Gen.ReferenceIdeal
import proofs.«900144_g7700000000000145_dist_ar_v7x_xy2x2_y_m256_n256_bf16_1_alg».proof.Proof.Gen.Pre_finite_inputs_Kernel
import proofs.«900144_g7700000000000145_dist_ar_v7x_xy2x2_y_m256_n256_bf16_1_alg».proof.Proof.Gen.Pre_finite_inputs_ReferenceIdeal
import proofs.«900144_g7700000000000145_dist_ar_v7x_xy2x2_y_m256_n256_bf16_1_alg».proof.Proof.Gen.ReferenceIdeal.Run
import proofs.«900144_g7700000000000145_dist_ar_v7x_xy2x2_y_m256_n256_bf16_1_alg».proof.Proof.Gen.ReferenceIdeal.Read
import proofs.«900144_g7700000000000145_dist_ar_v7x_xy2x2_y_m256_n256_bf16_1_alg».proof.Proof.Kernel.Run
import proofs.«900144_g7700000000000145_dist_ar_v7x_xy2x2_y_m256_n256_bf16_1_alg».proof.Proof.KernelIdeal.Run
import proofs.«900144_g7700000000000145_dist_ar_v7x_xy2x2_y_m256_n256_bf16_1_alg».proof.Proof.ValueBridge
import Idealize.ShloMosaic.Adequacy
import Idealize.ShloMosaic.Init

noncomputable section

namespace Cert.Proof

open Idealize.ShloMosaic Idealize.SL.Sem

/-- The word-level kernel runs on all four devices and leaves x unchanged. -/
theorem frame_k : Cert.frame_Kernel := fun m ρ _ =>
  (θ_run (Cert.Kernel.defs (F := Bits)) _ _).mono
    (fun _ h c => (h c (0 : Fin 2)).trans (Cert.Kernel.Exchange.finalA_x (F := Bits) m ρ c))
    (Cert.Kernel.Exchange.run_main (F := Bits) m ρ)

/-- So does the idealized kernel. -/
theorem frame_ki : Cert.frame_KernelIdeal := fun m ρ _ =>
  (θ_run (Cert.KernelIdeal.defs (F := Ideal)) _ _).mono
    (fun _ h c => (h c (0 : Fin 2)).trans (Cert.KernelIdeal.Exchange.finalA_x (F := Ideal) m ρ c))
    (Cert.KernelIdeal.Exchange.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, every device's result array at the reference's result: the sum of the two blocks of x. -/
theorem algebraic : Cert.algebraic_KernelIdeal_ReferenceIdeal := by
  intro m ρ m' ρ' _ hagree
  refine ⟨Cert.ReferenceIdeal.Read.val_main_v2 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨((h c (1 : Fin 2)).trans (Cert.KernelIdeal.Exchange.finalA_out (F := Ideal) m ρ c)).trans (Cert.ValueBridge.out_eq m ρ m' hagree c),
        (h c (0 : Fin 2)).trans (Cert.KernelIdeal.Exchange.finalA_x (F := Ideal) m ρ c)⟩)
      (Cert.KernelIdeal.Exchange.run_main (F := Ideal) m ρ)
  · exact (θ_run Cert.ReferenceIdeal.defs _ _).mono
      (fun _ h => ⟨(h 0).1.trans (Cert.ReferenceIdeal.Read.val_main_v2_eq (F := Ideal) _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
